-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x500000x128 : Shape := ⟨3, ![4, 500000, 128]⟩
abbrev S_ : Shape := ⟨0, ![]⟩

class Facts : Prop where
  bcast_S_S4x500000x128 : S_.BroadcastsInDim S4x500000x128 (![] : Fin 0 → Fin S4x500000x128.rank)
  reducesTo_S4x500000x128_S_d0_1_2 : S4x500000x128.ReducesTo [0, 1, 2] S_
  h_S_ : 0 < S_.numel

variable [Facts]

def fn {F : FTy → Type} [FloatOps F] (main_arg0 : FVec F S4x500000x128 .f32) : IVec S_ 1 :=
  let main_v0 : FVec F S4x500000x128 .f32 := Host.absf main_arg0
  let main_cst : FVec F S_ .f32 := constant S_ .f32 0x7F800000#32
  let main_v1 : FVec F S4x500000x128 .f32 := broadcastInDim S4x500000x128 ![] bcast_S_S4x500000x128 main_cst
  let main_v2 : IVec S4x500000x128 1 := cmpf .olt main_v0 main_v1
  let main_c : IVec S_ 1 := constantI S_ 1 1#1
  let main_v3 : IVec S_ 1 := (fun x v => Host.reduce IntOp.andi x v reducesTo_S4x500000x128_S_d0_1_2 h_S_) main_v2 main_c
  main_v3
-- ==== Kernel.lean ====
abbrev S4x500000x128 : Shape := ⟨3, ![4, 500000, 128]⟩
abbrev S1x500000x128 : Shape := ⟨3, ![1, 500000, 128]⟩
abbrev S500000x128 : Shape := ⟨2, ![500000, 128]⟩
abbrev S500000x512 : Shape := ⟨2, ![500000, 512]⟩
abbrev S5000x128 : Shape := ⟨2, ![5000, 128]⟩
abbrev S5000x512 : Shape := ⟨2, ![5000, 512]⟩

abbrev nBuf : Space → Nat
  | .hbm => 10
  | .vmem => 10
  | .smem => 0
  | _ => 0

abbrev bufTy : (tb : Table) → Fin (tcTables nBuf tb) → BufTy
  | .hbm, ⟨0, _⟩ => ⟨S4x500000x128, .f32⟩
  | .hbm, ⟨1, _⟩ => ⟨S1x500000x128, .f32⟩
  | .hbm, ⟨2, _⟩ => ⟨S500000x128, .f32⟩
  | .hbm, ⟨3, _⟩ => ⟨S1x500000x128, .f32⟩
  | .hbm, ⟨4, _⟩ => ⟨S500000x128, .f32⟩
  | .hbm, ⟨5, _⟩ => ⟨S1x500000x128, .f32⟩
  | .hbm, ⟨6, _⟩ => ⟨S500000x128, .f32⟩
  | .hbm, ⟨7, _⟩ => ⟨S1x500000x128, .f32⟩
  | .hbm, ⟨8, _⟩ => ⟨S500000x128, .f32⟩
  | .hbm, ⟨9, _⟩ => ⟨S500000x512, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x512, .f32⟩
  | .local _ .vmem, ⟨9, _⟩ => ⟨S5000x512, .f32⟩
  | _, _ => ⟨S4x500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  slices_S4x500000x128_S1x500000x128_0_0_0 : S4x500000x128.Slices ![0, 0, 0] S1x500000x128
  shapeCasts_S1x500000x128_S500000x128 : S1x500000x128.ShapeCasts S500000x128
  slices_S4x500000x128_S1x500000x128_1_0_0 : S4x500000x128.Slices ![1, 0, 0] S1x500000x128
  slices_S4x500000x128_S1x500000x128_2_0_0 : S4x500000x128.Slices ![2, 0, 0] S1x500000x128
  slices_S4x500000x128_S1x500000x128_3_0_0 : S4x500000x128.Slices ![3, 0, 0] S1x500000x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x512_S5000x128_0_0 : ∀ a, (![0, 0] : Fin 2 → Nat) a + S5000x128.size a ≤ S5000x512.size a
  inb_S5000x512_S5000x128_0_128 : ∀ a, (![0, 128] : Fin 2 → Nat) a + S5000x128.size a ≤ S5000x512.size a
  inb_S5000x512_S5000x128_0_256 : ∀ a, (![0, 256] : Fin 2 → Nat) a + S5000x128.size a ≤ S5000x512.size a
  inb_S5000x512_S5000x128_0_384 : ∀ a, (![0, 384] : Fin 2 → Nat) a + S5000x128.size a ≤ S5000x512.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .f32 = 32 ∨ (Rect.block (s := S500000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S500000x128.size a
  hwx0_2 : ∀ i : grid0.Coords, EltTy.bits .f32 = 32 ∨ (Rect.block (s := S500000x128) S5000x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S500000x128.size a
  hwx0_3 : ∀ i : grid0.Coords, EltTy.bits .f32 = 32 ∨ (Rect.block (s := S500000x128) S5000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x512.size a ≤ S500000x512.size a
  hwx0_4 : ∀ i : grid0.Coords, EltTy.bits .f32 = 32 ∨ (Rect.block (s := S500000x512) S5000x512.size (cc0_transform_4 i) (hinb0_4 i)).WholeWords (EltTy.packing .f32)

variable [Facts₀]

abbrev win0_0 : Pipeline.Window sig grid0 :=
  Pipeline.Window.ofSpec (Memref.whole main_v1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S5000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x500000x128 : Shape := ⟨3, ![4, 500000, 128]⟩
abbrev S500000x4x128 : Shape := ⟨3, ![500000, 4, 128]⟩
abbrev S500000x512 : Shape := ⟨2, ![500000, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x500000x128, .f32⟩
  | .hbm, ⟨1, _⟩ => ⟨S500000x4x128, .f32⟩
  | .hbm, ⟨2, _⟩ => ⟨S500000x512, .f32⟩
  | _, _ => ⟨S4x500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]

class Facts₀ : Prop where
  transposes_S4x500000x128_S500000x4x128_1_0_2 : S4x500000x128.Transposes [1, 0, 2] S500000x4x128
  shapeCasts_S500000x4x128_S500000x512 : S500000x4x128.ShapeCasts S500000x512

variable [Facts₀]

class Facts : Prop extends Facts₀ where

variable [Facts]
-- ==== Proof.Concat.lean ====
/-
  The mathematics of this certificate, with no program in sight.

  The argument is a stack `M` of four `500000 × 128` matrices (`M k` is hop `k`'s messages). Both programs
  compute the matrix `cat M` of shape `500000 × 512` whose row `n` is the four rows `M 0 n`, `M 1 n`, `M 2 n`,
  `M 3 n` laid side by side: entry `(n, c)` of `cat M` is entry `(c / 128, n, c % 128)` of `M`.

  * The kernel's host prologue cuts each hop out of the stack (a slice of one matrix, reshaped to drop the unit
    axis): that is `hop M k`, entry `(n, j) ↦ M (k, n, j)` (`slice_reshape_eq_hop`).
  * `cat M` at column `128 k + j` of row `n` is `hop M k` at `(n, j)` (`cat_at_lane`): the kernel's four stores,
    each of one hop's rows into its own band of 128 columns, therefore write restrictions of the one function `cat M`.
  * The reference's transpose-then-flatten is read against `cat M` in Proof/RefValue.lean.

  Nothing here is arithmetic on the entries: every statement holds for entries of any type.
-/
import Idealize.ShloMosaic.Lib.ValueIdx
import Idealize.ShloMosaic.Lib.ValueLayout
import Idealize.ShloMosaic.Lib.Pipeline.Value

noncomputable section

namespace Cert.Concat

open Idealize.ShloMosaic Idealize.ShloMosaic.ValueIdx

/-- The stack of four hops. -/
abbrev Stack : Shape := ⟨3, ![4, 500000, 128]⟩
/-- One hop cut out of the stack, its unit axis still there. -/
abbrev OneHop : Shape := ⟨3, ![1, 500000, 128]⟩
/-- One hop as a matrix. -/
abbrev Hop : Shape := ⟨2, ![500000, 128]⟩
/-- The concatenated matrix. -/
abbrev Wide : Shape := ⟨2, ![500000, 512]⟩

variable {α : Type}

/-- Hop `k` of the stack, as a matrix: entry `(n, j)` is `M (k, n, j)`. -/
def hop (M : Stack.Idx → α) (k : Fin 4) : Hop.Idx → α := fun i => M (ix3 k (i 0) (i 1))

/-- The four hops side by side: entry `(n, c)` is `M (c / 128, n, c % 128)`. -/
def cat (M : Stack.Idx → α) : Wide.Idx → α := fun i =>
  M (ix3 (⟨(i 1).val / 128, by have h : (i 1).val < 512 := (i 1).isLt; omega⟩ : Fin 4) (i 0)
    (⟨(i 1).val % 128, Nat.mod_lt _ (by decide)⟩ : Fin 128))

/-- Column `128 k + j` of row `n` of the concatenation is entry `(n, j)` of hop `k`. -/
theorem cat_at_lane (M : Stack.Idx → α) (k : Fin 4) (n : Fin 500000) (j : Fin 128) (c : Fin 512)
    (hc : c.val = 128 * k.val + j.val) : cat M (ix2 n c) = hop M k (ix2 n j) := by
  have hj : j.val < 128 := j.isLt
  have hk : k.val < 4 := k.isLt
  have e1 : (⟨c.val / 128, by have h : c.val < 512 := c.isLt; omega⟩ : Fin 4) = k :=
    Fin.ext (by show c.val / 128 = k.val; omega)
  have e2 : (⟨c.val % 128, Nat.mod_lt _ (by decide)⟩ : Fin 128) = j :=
    Fin.ext (by show c.val % 128 = j.val; omega)
  show M (ix3 (⟨c.val / 128, _⟩ : Fin 4) n (⟨c.val % 128, _⟩ : Fin 128)) = M (ix3 k n j)
  rw [e1, e2]

/-- Cutting matrix `o` out of the stack and dropping the unit axis gives hop `o`. -/
theorem slice_reshape_eq_hop (o : Nat) (ho : o < 4) (M : Stack.Idx → α)
    (hs : Stack.Slices ![o, 0, 0] OneHop) (hc : OneHop.ShapeCasts Hop) :
    shapeCast Hop (extractStridedSlice OneHop ![o, 0, 0] M hs) hc = hop M ⟨o, ho⟩ := by
  funext i
  obtain ⟨n, j, rfl⟩ : ∃ (n : Fin 500000) (j : Fin 128), i = ix2 n j := ⟨i 0, i 1, eq_ix2 i⟩
  rw [shapeCast_1ab_ab_apply]
  exact extractStridedSlice_apply _ _ hs _ (ix3 (⟨o, ho⟩ : Fin 4) n j) (fun ax => by
    match ax with
    | ⟨0, _⟩ => exact (Nat.add_zero _).symm
    | ⟨1, _⟩ => exact (Nat.zero_add _).symm
    | ⟨2, _⟩ => exact (Nat.zero_add _).symm)

end Cert.Concat

end
-- ==== Proof.KernelValue.lean ====
/-
  What the idealized kernel leaves in its result array: the concatenation `Concat.cat` of the argument stack.

  * The host prologue hands the pipeline four arrays, hop `k` of the stack each (`entry_hop0` … `entry_hop3`).
  * At grid point `t` every window is on rows `5000 t … 5000 t + 4999`: input window `k`'s block is those rows of
    hop `k` (`in_block0` … `in_block3`), the output window's block those rows of the result (`out_block`).
  * The body stores input block `k`, unchanged, into columns `128 k … 128 k + 127` of the output block. The four bands
    tile the block, so the block after the body is any function that reads, in band `k`, input block `k` at the same
    row and at the column inside the band (`block_eq`) — and rows `5000 t …` of `cat` of the stack are such a function
    (`Concat.cat_at_lane`): `flushed_eq`.
  * The hundred blocks cover the result array — row `n` lies in block `n / 5000` (`cover`) — so the array after the
    run is `cat` of the stack everywhere (`final`, `run`).
-/
import proofs.«174079_j81819126988937_1_alg».proof.Proof.Gen.KernelIdeal.Value
import proofs.«174079_j81819126988937_1_alg».proof.Proof.Concat
import Idealize.ShloMosaic.Lib.StableHlo.Run
import Idealize.ShloMosaic.Lib.ValueIdx
import Idealize.ShloMosaic.Lib.Pipeline.Value

set_option maxRecDepth 16384

noncomputable section

namespace Cert.KernelIdeal.CatValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.StableHlo
open Cert.Concat

variable {F : FTy → Type} [FloatOps F]
variable (m : (ℓ : Loc nD τ sig) → Buf (Elt F) ℓ) (ρ : Dev nD → PrngReg)

/-- The stack of hops as launched on core `c`. -/
abbrev stack (c : Dev nD) : Stack.Idx → Elt F .f32 := m ((c : Thread nD τ).loc main_arg0)

/-! ## The host prologue: each staged array is one hop of the stack -/

theorem entry_hop0 (c : Dev nD) : (V m c main_v1 : S500000x128.Idx → Elt F .f32) = hop (stack m c) 0 := by
  have e : (V m c main_v1 : S500000x128.Idx → Elt F .f32)
      = shapeCast S500000x128 (extractStridedSlice S1x500000x128 ![0, 0, 0] (stack m c)
          slices_S4x500000x128_S1x500000x128_0_0_0) shapeCasts_S1x500000x128_S500000x128 := by
    dsimp only [V, hostOps0]; after_results; rfl
  rw [e]; exact slice_reshape_eq_hop 0 (by decide) _ _ _

theorem entry_hop1 (c : Dev nD) : (V m c main_v3 : S500000x128.Idx → Elt F .f32) = hop (stack m c) 1 := by
  have e : (V m c main_v3 : S500000x128.Idx → Elt F .f32)
      = shapeCast S500000x128 (extractStridedSlice S1x500000x128 ![1, 0, 0] (stack m c)
          slices_S4x500000x128_S1x500000x128_1_0_0) shapeCasts_S1x500000x128_S500000x128 := by
    dsimp only [V, hostOps0]; after_results; rfl
  rw [e]; exact slice_reshape_eq_hop 1 (by decide) _ _ _

theorem entry_hop2 (c : Dev nD) : (V m c main_v5 : S500000x128.Idx → Elt F .f32) = hop (stack m c) 2 := by
  have e : (V m c main_v5 : S500000x128.Idx → Elt F .f32)
      = shapeCast S500000x128 (extractStridedSlice S1x500000x128 ![2, 0, 0] (stack m c)
          slices_S4x500000x128_S1x500000x128_2_0_0) shapeCasts_S1x500000x128_S500000x128 := by
    dsimp only [V, hostOps0]; after_results; rfl
  rw [e]; exact slice_reshape_eq_hop 2 (by decide) _ _ _

theorem entry_hop3 (c : Dev nD) : (V m c main_v7 : S500000x128.Idx → Elt F .f32) = hop (stack m c) 3 := by
  have e : (V m c main_v7 : S500000x128.Idx → Elt F .f32)
      = shapeCast S500000x128 (extractStridedSlice S1x500000x128 ![3, 0, 0] (stack m c)
          slices_S4x500000x128_S1x500000x128_3_0_0) shapeCasts_S1x500000x128_S500000x128 := by
    dsimp only [V, hostOps0]; after_results; rfl
  rw [e]; exact slice_reshape_eq_hop 3 (by decide) _ _ _

/-! ## The body: four bands of 128 columns -/

theorem zeros2 : (![0, 0] : Fin 2 → Nat) = fun _ => 0 := funext fun a => by fin_cases a <;> rfl

/-- Each stored value is the loaded block itself: the body's shape cast is to the block's own shape, and the load is of
    the whole staging buffer. -/
theorem pay1_eq (x : Vec F S5000x128 .f32) : k0_pay1 (View.ld x r0_0) = x :=
  (shapeCast_self (s := S5000x128) (View.ld x r0_0) shapeCasts_S5000x128_S5000x128).trans
    (View.ld_unit_zero (S := S5000x128) zeros2 _ x)
theorem pay2_eq (x : Vec F S5000x128 .f32) : k0_pay2 (View.ld x r0_0) = x :=
  (shapeCast_self (s := S5000x128) (View.ld x r0_0) shapeCasts_S5000x128_S5000x128).trans
    (View.ld_unit_zero (S := S5000x128) zeros2 _ x)
theorem pay3_eq (x : Vec F S5000x128 .f32) : k0_pay3 (View.ld x r0_0) = x :=
  (shapeCast_self (s := S5000x128) (View.ld x r0_0) shapeCasts_S5000x128_S5000x128).trans
    (View.ld_unit_zero (S := S5000x128) zeros2 _ x)
theorem pay4_eq (x : Vec F S5000x128 .f32) : k0_pay4 (View.ld x r0_0) = x :=
  (shapeCast_self (s := S5000x128) (View.ld x r0_0) shapeCasts_S5000x128_S5000x128).trans
    (View.ld_unit_zero (S := S5000x128) zeros2 _ x)

/-- Entry `(r, l)` of a band's rectangle sits at `(r, o + l)` of the output block, `o` the band's first column. -/
theorem band_idx (o : Nat) (inb : ∀ a, (![0, o] : Fin 2 → Nat) a + S5000x128.size a ≤ S5000x512.size a)
    (r : Fin 5000) (l : Fin 128) (cc : Fin 512) (hcc : cc.val = o + l.val) :
    (Rect.unit (s := S5000x512) ![0, o] S5000x128.size inb).idx (ix2 r l) = ix2 r cc := by
  funext a; apply Fin.ext
  match a with
  | ⟨0, _⟩ => show 0 + 1 * r.val = r.val; omega
  | ⟨1, _⟩ => show o + 1 * l.val = cc.val; omega

/-- The output block after the body is any function `G` of its index that reads, in band `k` (columns `128 k + l`),
    input block `k` at `(r, l)`. -/
theorem block_eq (x0 x1 x2 x3 : Vec F S5000x128 .f32) (G : S5000x512.Idx → Elt F .f32)
    (h0 : ∀ (r : Fin 5000) (l : Fin 128) (cc : Fin 512), cc.val = 0 + l.val → G (ix2 r cc) = x0 (ix2 r l))
    (h1 : ∀ (r : Fin 5000) (l : Fin 128) (cc : Fin 512), cc.val = 128 + l.val → G (ix2 r cc) = x1 (ix2 r l))
    (h2 : ∀ (r : Fin 5000) (l : Fin 128) (cc : Fin 512), cc.val = 256 + l.val → G (ix2 r cc) = x2 (ix2 r l))
    (h3 : ∀ (r : Fin 5000) (l : Fin 128) (cc : Fin 512), cc.val = 384 + l.val → G (ix2 r cc) = x3 (ix2 r l)) :
    out0_4 x0 x1 x2 x3 = G := by
  funext y
  unfold out0_4
  refine View.canon_apply_of_pieces G _ ?_ y (cover0_4 _ _ _ _ y)
  intro pc hpc x
  rcases List.mem_cons.mp hpc with rfl | hpc
  · show k0_pay4 (View.ld x3 r0_0) x = G (r0_4.idx x)
    obtain ⟨r, l, rfl⟩ : ∃ (r : Fin 5000) (l : Fin 128), x = ix2 r l := ⟨x 0, x 1, eq_ix2 x⟩
    have hl : l.val < 128 := l.isLt
    rw [pay4_eq, band_idx 384 _ r l ⟨384 + l.val, by omega⟩ rfl]
    exact (h3 r l _ rfl).symm
  rcases List.mem_cons.mp hpc with rfl | hpc
  · show k0_pay3 (View.ld x2 r0_0) x = G (r0_3.idx x)
    obtain ⟨r, l, rfl⟩ : ∃ (r : Fin 5000) (l : Fin 128), x = ix2 r l := ⟨x 0, x 1, eq_ix2 x⟩
    have hl : l.val < 128 := l.isLt
    rw [pay3_eq, band_idx 256 _ r l ⟨256 + l.val, by omega⟩ rfl]
    exact (h2 r l _ rfl).symm
  rcases List.mem_cons.mp hpc with rfl | hpc
  · show k0_pay2 (View.ld x1 r0_0) x = G (r0_2.idx x)
    obtain ⟨r, l, rfl⟩ : ∃ (r : Fin 5000) (l : Fin 128), x = ix2 r l := ⟨x 0, x 1, eq_ix2 x⟩
    have hl : l.val < 128 := l.isLt
    rw [pay2_eq, band_idx 128 _ r l ⟨128 + l.val, by omega⟩ rfl]
    exact (h1 r l _ rfl).symm
  rcases List.mem_cons.mp hpc with rfl | hpc
  · show k0_pay1 (View.ld x0 r0_0) x = G (r0_1.idx x)
    obtain ⟨r, l, rfl⟩ : ∃ (r : Fin 5000) (l : Fin 128), x = ix2 r l := ⟨x 0, x 1, eq_ix2 x⟩
    have hl : l.val < 128 := l.isLt
    rw [pay1_eq, band_idx 0 _ r l ⟨0 + l.val, by omega⟩ rfl]
    exact (h0 r l _ rfl).symm
  nomatch hpc

/-! ## The windows' blocks at a grid point -/

/-- The printed index maps, decided over the hundred points: every input window is on the output window's row block,
    no window moves along the columns, and the row block's number is below 100. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 99 :=
  (by decide +kernel : ∀ t : Fin grid0.N, _)

/-- Every row block is some point's. -/
theorem idx_onto : ∀ q : Fin 100, ∃ t : Fin cfg0.N, win0_4.index t = ![q.val, 0] :=
  (by decide +kernel : ∀ q : Fin 100, ∃ t : Fin grid0.N, win0_4.index t = ![q.val, 0])

/-- Entry `(r, l)` of input window 0's block at point `t` is entry `(n, l)` of hop 0, `n` the row `r` of the point's
    row block. -/
theorem in_block0 (c : Dev nD) (t : Fin cfg0.N) (r : Fin 5000) (l : Fin 128) (n : Fin 500000)
    (hn : n.val = win0_4.index t (0 : Fin 2) * 5000 + r.val) :
    iblk m c 0 t (ix2 r l) = hop (stack m c) 0 (ix2 n l) := by
  obtain ⟨e0, e1, -⟩ := idx_facts t
  show V m c main_v1 (((cfg0.win 0).blk t).view.emb (ix2 r l)) = _
  refine (congrFun (entry_hop0 m c) _).trans (congrArg (hop (stack m c) 0) ?_)
  funext a; apply Fin.ext
  match a with
  | ⟨0, _⟩ => show win0_0.index t (0 : Fin 2) * 5000 + 1 * r.val = n.val; omega
  | ⟨1, _⟩ => show win0_0.index t (1 : Fin 2) * 128 + 1 * l.val = l.val; omega

theorem in_block1 (c : Dev nD) (t : Fin cfg0.N) (r : Fin 5000) (l : Fin 128) (n : Fin 500000)
    (hn : n.val = win0_4.index t (0 : Fin 2) * 5000 + r.val) :
    iblk m c 1 t (ix2 r l) = hop (stack m c) 1 (ix2 n l) := by
  obtain ⟨-, -, e0, e1, -⟩ := idx_facts t
  show V m c main_v3 (((cfg0.win 1).blk t).view.emb (ix2 r l)) = _
  refine (congrFun (entry_hop1 m c) _).trans (congrArg (hop (stack m c) 1) ?_)
  funext a; apply Fin.ext
  match a with
  | ⟨0, _⟩ => show win0_1.index t (0 : Fin 2) * 5000 + 1 * r.val = n.val; omega
  | ⟨1, _⟩ => show win0_1.index t (1 : Fin 2) * 128 + 1 * l.val = l.val; omega

theorem in_block2 (c : Dev nD) (t : Fin cfg0.N) (r : Fin 5000) (l : Fin 128) (n : Fin 500000)
    (hn : n.val = win0_4.index t (0 : Fin 2) * 5000 + r.val) :
    iblk m c 2 t (ix2 r l) = hop (stack m c) 2 (ix2 n l) := by
  obtain ⟨-, -, -, -, e0, e1, -⟩ := idx_facts t
  show V m c main_v5 (((cfg0.win 2).blk t).view.emb (ix2 r l)) = _
  refine (congrFun (entry_hop2 m c) _).trans (congrArg (hop (stack m c) 2) ?_)
  funext a; apply Fin.ext
  match a with
  | ⟨0, _⟩ => show win0_2.index t (0 : Fin 2) * 5000 + 1 * r.val = n.val; omega
  | ⟨1, _⟩ => show win0_2.index t (1 : Fin 2) * 128 + 1 * l.val = l.val; omega

theorem in_block3 (c : Dev nD) (t : Fin cfg0.N) (r : Fin 5000) (l : Fin 128) (n : Fin 500000)
    (hn : n.val = win0_4.index t (0 : Fin 2) * 5000 + r.val) :
    iblk m c 3 t (ix2 r l) = hop (stack m c) 3 (ix2 n l) := by
  obtain ⟨-, -, -, -, -, -, e0, e1, -⟩ := idx_facts t
  show V m c main_v7 (((cfg0.win 3).blk t).view.emb (ix2 r l)) = _
  refine (congrFun (entry_hop3 m c) _).trans (congrArg (hop (stack m c) 3) ?_)
  funext a; apply Fin.ext
  match a with
  | ⟨0, _⟩ => show win0_3.index t (0 : Fin 2) * 5000 + 1 * r.val = n.val; omega
  | ⟨1, _⟩ => show win0_3.index t (1 : Fin 2) * 128 + 1 * l.val = l.val; omega

/-- Entry `(r, cc)` of the output window's block at point `t` is entry `(n, cc)` of the result array. -/
theorem out_block (t : Fin cfg0.N) (r : Fin 5000) (cc : Fin 512) (n : Fin 500000)
    (hn : n.val = win0_4.index t (0 : Fin 2) * 5000 + r.val) :
    ((cfg0.win 4).blk t).view.emb (ix2 r cc) = (ix2 n cc : S500000x512.Idx) := by
  obtain ⟨-, -, -, -, -, -, -, -, e8, -⟩ := idx_facts t
  funext a; apply Fin.ext
  match a with
  | ⟨0, _⟩ => show win0_4.index t (0 : Fin 2) * 5000 + 1 * r.val = n.val; omega
  | ⟨1, _⟩ => show win0_4.index t (1 : Fin 2) * 512 + 1 * cc.val = cc.val; omega

/-! ## What a point writes back -/

/-- Point `t` writes back its block of the concatenation of the stack. -/
theorem flushed_eq (c : Dev nD) (t : Fin cfg0.N) :
    (dats m 0 c).flushed 4 t = ((cfg0.win 4).blk t).view.read (Elt F) (cat (stack m c)) := by
  rw [Value.flushed4]
  obtain ⟨-, -, -, -, -, -, -, -, -, hb⟩ := idx_facts t
  funext y
  show out0_4 (iblk m c 0 t) (iblk m c 1 t) (iblk m c 2 t) (iblk m c 3 t) y
    = cat (stack m c) (((cfg0.win 4).blk t).view.emb y)
  refine congrFun (block_eq (iblk m c 0 t) (iblk m c 1 t) (iblk m c 2 t) (iblk m c 3 t)
    (fun y : S5000x512.Idx => cat (stack m c) (((cfg0.win 4).blk t).view.emb y)) ?_ ?_ ?_ ?_) y
  · intro r l cc hcc
    have hr : r.val < 5000 := r.isLt
    show cat (stack m c) (((cfg0.win 4).blk t).view.emb (ix2 r cc)) = iblk m c 0 t (ix2 r l)
    rw [out_block t r cc ⟨win0_4.index t (0 : Fin 2) * 5000 + r.val, by omega⟩ rfl,
      in_block0 m c t r l ⟨win0_4.index t (0 : Fin 2) * 5000 + r.val, by omega⟩ rfl]
    exact cat_at_lane _ 0 _ l cc (by show cc.val = 128 * 0 + l.val; omega)
  · intro r l cc hcc
    have hr : r.val < 5000 := r.isLt
    show cat (stack m c) (((cfg0.win 4).blk t).view.emb (ix2 r cc)) = iblk m c 1 t (ix2 r l)
    rw [out_block t r cc ⟨win0_4.index t (0 : Fin 2) * 5000 + r.val, by omega⟩ rfl,
      in_block1 m c t r l ⟨win0_4.index t (0 : Fin 2) * 5000 + r.val, by omega⟩ rfl]
    exact cat_at_lane _ 1 _ l cc (by show cc.val = 128 * 1 + l.val; omega)
  · intro r l cc hcc
    have hr : r.val < 5000 := r.isLt
    show cat (stack m c) (((cfg0.win 4).blk t).view.emb (ix2 r cc)) = iblk m c 2 t (ix2 r l)
    rw [out_block t r cc ⟨win0_4.index t (0 : Fin 2) * 5000 + r.val, by omega⟩ rfl,
      in_block2 m c t r l ⟨win0_4.index t (0 : Fin 2) * 5000 + r.val, by omega⟩ rfl]
    exact cat_at_lane _ 2 _ l cc (by show cc.val = 128 * 2 + l.val; omega)
  · intro r l cc hcc
    have hr : r.val < 5000 := r.isLt
    show cat (stack m c) (((cfg0.win 4).blk t).view.emb (ix2 r cc)) = iblk m c 3 t (ix2 r l)
    rw [out_block t r cc ⟨win0_4.index t (0 : Fin 2) * 5000 + r.val, by omega⟩ rfl,
      in_block3 m c t r l ⟨win0_4.index t (0 : Fin 2) * 5000 + r.val, by omega⟩ rfl]
    exact cat_at_lane _ 3 _ l cc (by show cc.val = 128 * 3 + l.val; omega)

/-! ## From the blocks to the array -/

/-- An index of the result array is in point `t`'s block iff each coordinate is in the block's range on its axis. -/
theorem mem_blk (t : Fin cfg0.N) (i : S500000x512.Idx) :
    i ∈ ((cfg0.win 4).blk t).view.set ↔ ∀ a : Fin 2, win0_4.index t a * S5000x512.size a ≤ (i a).val
      ∧ (i a).val < win0_4.index t a * S5000x512.size a + S5000x512.size a := by
  show i ∈ ((View.whole main_v8).slice (win0_4.rect t)).set ↔ _
  rw [View.set_slice_whole, Rect.mem_set_unit]
  exact Iff.rfl

/-- Every index of the result array is in some point's block: row `n` in the block of point `n / 5000`. -/
theorem cover (i : S500000x512.Idx) :
    ∃ t : Fin cfg0.N, (cfg0.win 4).flush t = true ∧ i ∈ ((cfg0.win 4).blk t).view.set := by
  have hi0 : (i 0).val < 500000 := (i 0).isLt
  have hi1 : (i 1).val < 512 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 512 ≤ (i 1).val ∧ (i 1).val < win0_4.index t (1 : Fin 2) * 512 + 512
    omega

/-- The result array after the run is the concatenation of the stack as launched. -/
theorem final (c : Dev nD) : (dats m 0 c).arrAt 4 cfg0.N = cat (stack m c) :=
  (dats m 0 c).arrAt_eq_of_cover 4 (cat (stack m c)) (fun t _ => flushed_eq m c t) cover

/-- Every weakly fair execution of the idealized kernel terminates with the result array at the concatenation of the
    argument stack, the argument unchanged. -/
theorem run : θ_run defs (onTc (τ := τ) (main (F := F))) ⟨m, fun _ => 0, ρ⟩ fun r => ∀ c : Dev nD,
      r.2.mem ((c : Thread nD τ).loc main_v8) = cat (stack m c)
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.CatValue

end
-- ==== Proof.RefValue.lean ====
/-
  What the idealized reference computes: the concatenation `Concat.cat` of the argument stack.

  The reference transposes the stack `4 × 500000 × 128` to `500000 × 4 × 128` and flattens the last two axes. Read at an
  index (the generated read-at-an-index lemmas of the two operations, chained): entry `(n, c)` of the result sits at
  row-major position `512 n + c`, which in the transposed stack is `(n, c / 128, c % 128)` — because
  `512 n + c = (4 n + c / 128) · 128 + c % 128` — and the transpose reads the stack there at `(c / 128, n, c % 128)`.
  That is `cat` of the stack at `(n, c)`.
-/
import proofs.«174079_j81819126988937_1_alg».proof.Proof.Gen.ReferenceIdeal.Run
import proofs.«174079_j81819126988937_1_alg».proof.Proof.Gen.ReferenceIdeal.Read
import proofs.«174079_j81819126988937_1_alg».proof.Proof.Concat
import Idealize.ShloMosaic.Lib.ValueIdx

noncomputable section

namespace Cert.ReferenceIdeal.CatValue

open Cert.ReferenceIdeal Cert.ReferenceIdeal.Gen Idealize.ShloMosaic Idealize.ShloMosaic.TcCoe Idealize.SL.Sem
open Idealize.ShloMosaic.ValueIdx
open Cert.Concat

variable {F : FTy → Type} [FloatOps F]

/-- The reference's result, as a function of the argument stack, is its concatenation. -/
theorem result_eq_cat (x0 : (⟨S4x500000x128, .f32⟩ : BufTy).Contents (Elt F)) :
    Read.val_main_v1 (F := F) x0 = cat x0 := by
  funext i
  have h0 : (i 0).val < 500000 := (i 0).isLt
  have h1 : (i 1).val < 512 := (i 1).isLt
  rw [Read.val_main_v1_apply, Read.val_main_v0_apply]
  show x0 (Read.idx_main_v0 (Read.idx_main_v1 i))
    = x0 (ix3 (⟨(i 1).val / 128, _⟩ : Fin 4) (i 0) (⟨(i 1).val % 128, _⟩ : Fin 128))
  refine congrArg x0 ?_
  funext a; apply Fin.ext
  match a with
  | ⟨0, _⟩ => show ((i 0).val * 512 + (i 1).val) / 128 % 4 = (i 1).val / 128; omega
  | ⟨1, _⟩ => show ((i 0).val * 512 + (i 1).val) / 512 = (i 0).val; omega
  | ⟨2, _⟩ => show ((i 0).val * 512 + (i 1).val) % 128 = (i 1).val % 128; omega

end Cert.ReferenceIdeal.CatValue

end
-- ==== Proof.lean ====
/-
  The certificate of a feature-axis concatenation.

  The kernel takes a stack of four `500000 × 128` matrices and writes the `500000 × 512` matrix whose row `n` is the four
  rows `n` side by side; the reference transposes the stack to `500000 × 4 × 128` and flattens the last two axes. Both
  are the one function `Concat.cat` of the stack — entry `(n, c)` is entry `(c / 128, n, c % 128)` of the stack — and
  no arithmetic is done on the entries, so the precondition (finite inputs) is never opened.

  * Proof/Concat.lean: the function `cat`, the hops `hop`, and the index arithmetic that joins them.
  * Proof/KernelValue.lean: the idealized kernel's result array after the run is `cat` of the stack (each grid point
    writes 5000 rows of it, four bands of 128 columns, and the hundred blocks cover the array).
  * Proof/RefValue.lean: the idealized reference's result is `cat` of the stack.

  The three frames are the generated frame runs (the reference's is its generated run with the result dropped); the
  ideal pass rewrote nothing, so `preserves` is `True`.
-/
import proofs.«174079_j81819126988937_1_alg».proof.Defs
import proofs.«174079_j81819126988937_1_alg».proof.Proof.Gen.Kernel
import proofs.«174079_j81819126988937_1_alg».proof.Proof.Gen.Kernel.Skeleton
import proofs.«174079_j81819126988937_1_alg».proof.Proof.Gen.Kernel.Launch
import proofs.«174079_j81819126988937_1_alg».proof.Proof.Gen.Kernel.Points
import proofs.«174079_j81819126988937_1_alg».proof.Proof.Gen.Kernel.Frame
import proofs.«174079_j81819126988937_1_alg».proof.Proof.Gen.KernelIdeal
import proofs.«174079_j81819126988937_1_alg».proof.Proof.Gen.KernelIdeal.Skeleton
import proofs.«174079_j81819126988937_1_alg».proof.Proof.Gen.KernelIdeal.Launch
import proofs.«174079_j81819126988937_1_alg».proof.Proof.Gen.KernelIdeal.Points
import proofs.«174079_j81819126988937_1_alg».proof.Proof.Gen.KernelIdeal.Frame
import proofs.«174079_j81819126988937_1_alg».proof.Proof.Gen.ReferenceIdeal
import proofs.«174079_j81819126988937_1_alg».proof.Proof.Gen.Pre_finite_inputs
import proofs.«174079_j81819126988937_1_alg».proof.Proof.KernelValue
import proofs.«174079_j81819126988937_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, and leaves the stack as launched: its generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The idealized reference runs and leaves the stack as launched: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the stack, both idealized programs end with their result arrays at the concatenation of
    the stack. -/
theorem algebraic : Cert.algebraic_KernelIdeal_ReferenceIdeal := by
  intro m ρ m' ρ' _ hagree
  refine ⟨_, Cert.KernelIdeal.CatValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.CatValue.result_eq_cat, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
